-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S640000x128 : Shape := ⟨2, ![640000, 128]⟩
abbrev S128x256 : Shape := ⟨2, ![128, 256]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S2x640000 32 := broadcastInDim S2x640000 ![] bcast_S_S2x640000 main_c_6
  let main_v20 : IVec S2x640000 1 := cmpi .sge main_arg1 main_v19
  let main_c_7 : IVec S_ 1 := constantI S_ 1 1#1
  let main_v21 : IVec S_ 1 := (fun x v => Host.reduce IntOp.andi x v reducesTo_S2x640000_S_d0_1 h_S_) main_v20 main_c_7
  let main_v22 : IVec S_ 1 := andi main_v18 main_v21
  main_v22

def fn {F : FTy → Type} [FloatOps F] (main_arg0 : FVec F S20000x128 .f32) (main_arg1 : IVec S2x640000 32) (main_arg2 : FVec F S640000x128 .f32) (main_arg3 : FVec F S128x256 .f32) (main_arg4 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S20000x128 : Shape := ⟨2, ![20000, 128]⟩
abbrev S2x640000 : Shape := ⟨2, ![2, 640000]⟩
abbrev S640000x128 : Shape := ⟨2, ![640000, 128]⟩
abbrev S128x256 : Shape := ⟨2, ![128, 256]⟩
abbrev S128 : Shape := ⟨1, ![128]⟩
abbrev S_ : Shape := ⟨0, ![]⟩
abbrev S1x640000 : Shape := ⟨2, ![1, 640000]⟩
abbrev S640000 : Shape := ⟨1, ![640000]⟩
abbrev S256x128 : Shape := ⟨2, ![256, 128]⟩
abbrev S128x128 : Shape := ⟨2, ![128, 128]⟩
abbrev S640000x1 : Shape := ⟨2, ![640000, 1]⟩
abbrev S1x128 : Shape := ⟨2, ![1, 128]⟩
abbrev S6400x128 : Shape := ⟨2, ![6400, 128]⟩

abbrev nBuf : Space → Nat
  | .hbm => 42
  | .vmem => 8
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000x128, .f32⟩
  | .hbm, ⟨3, _⟩ => ⟨S128x256, .f32⟩
  | .hbm, ⟨4, _⟩ => ⟨S128, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S2x640000, .i32⟩
  | .hbm, ⟨9, _⟩ => ⟨S2x640000, .i32⟩
  | .hbm, ⟨10, _⟩ => ⟨S_, .i32⟩
  | .hbm, ⟨11, _⟩ => ⟨S2x640000, .i32⟩
  | .hbm, ⟨12, _⟩ => ⟨S2x640000, .i32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S256x128, .f32⟩
  | .hbm, ⟨18, _⟩ => ⟨S128x128, .f32⟩
  | .hbm, ⟨19, _⟩ => ⟨S128x128, .f32⟩
  | .hbm, ⟨20, _⟩ => ⟨S20000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S640000x128, .f32⟩
  | .hbm, ⟨40, _⟩ => ⟨S1x128, .f32⟩
  | .hbm, ⟨41, _⟩ => ⟨S640000x128, .f32⟩
  | .local _ .vmem, ⟨0, _⟩ => ⟨S6400x128, .f32⟩
  | .local _ .vmem, ⟨1, _⟩ => ⟨S6400x128, .f32⟩
  | .local _ .vmem, ⟨2, _⟩ => ⟨S6400x128, .f32⟩
  | .local _ .vmem, ⟨3, _⟩ => ⟨S6400x128, .f32⟩
  | .local _ .vmem, ⟨4, _⟩ => ⟨S128x128, .f32⟩
  | .local _ .vmem, ⟨5, _⟩ => ⟨S1x128, .f32⟩
  | .local _ .vmem, ⟨6, _⟩ => ⟨S6400x128, .f32⟩
  | .local _ .vmem, ⟨7, _⟩ => ⟨S6400x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2x640000 : S_.BroadcastsInDim S2x640000 (![] : Fin 0 → Fin S2x640000.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x256_S256x128_1_0 : S128x256.Transposes [1, 0] S256x128
  slices_S256x128_S128x128_0_0 : S256x128.Slices ![0, 0] S128x128
  slices_S256x128_S128x128_128_0 : S256x128.Slices ![128, 0] S128x128
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S6400x128_S6400x128 : S6400x128.ShapeCasts S6400x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  dot_S20000x128_S128x128_S20000x128_1_0_0_1_n_n_wf : DotDims.WF S20000x128 S128x128 S20000x128 [1] [0] [0] [1] [] []
  gather_S20000x128_S640000x1_S640000x128_1_0_n_n_0_1_1128_wf : GatherDims.WF S20000x128 S640000x1 S640000x128 [1] [0] [] [0] [] 1 ![1, 128]
  dot_S6400x128_S128x128_S6400x128_1_0_0_1_n_n_wf : DotDims.WF S6400x128 S128x128 S6400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .f32 = 32 ∨ (Rect.block (s := S640000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S640000x128.size a
  hwx0_1 : ∀ i : grid0.Coords, EltTy.bits .f32 = 32 ∨ (Rect.block (s := S640000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x128.size a ≤ S640000x128.size a
  hwx0_4 : ∀ i : grid0.Coords, EltTy.bits .f32 = 32 ∨ (Rect.block (s := S640000x128) S6400x128.size (cc0_transform_4 i) (hinb0_4 i)).WholeWords (EltTy.packing .f32)

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf

abbrev win0_0 : Pipeline.Window sig grid0 :=
  Pipeline.Window.ofSpec (Memref.whole main_v23) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S6400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S640000x128 : Shape := ⟨2, ![640000, 128]⟩
abbrev S128x256 : Shape := ⟨2, ![128, 256]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x256 : Shape := ⟨2, ![640000, 256]⟩
abbrev S256x128 : Shape := ⟨2, ![256, 128]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000x128, .f32⟩
  | .hbm, ⟨3, _⟩ => ⟨S128x256, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S640000x128, .f32⟩
  | .hbm, ⟨28, _⟩ => ⟨S640000x256, .f32⟩
  | .hbm, ⟨29, _⟩ => ⟨S256x128, .f32⟩
  | .hbm, ⟨30, _⟩ => ⟨S640000x128, .f32⟩
  | .hbm, ⟨31, _⟩ => ⟨S1x128, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S640000x128, .f32⟩
  | .hbm, ⟨36, _⟩ => ⟨S640000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_cst : Ref sig .tc := ⟨.hbm, 34, rfl⟩
abbrev main_call0_v0 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  transposes_S128x256_S256x128_1_0 : S128x256.Transposes [1, 0] S256x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  gather_S20000x128_S640000x1_S640000x128_1_0_n_n_0_1_1128_wf : GatherDims.WF S20000x128 S640000x1 S640000x128 [1] [0] [] [0] [] 1 ![1, 128]
  dot_S640000x256_S256x128_S640000x128_1_0_0_1_n_n_wf : DotDims.WF S640000x256 S256x128 S640000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf

class Facts : Prop extends Facts₀ where

variable [Facts]
-- ==== Proof.EdgeSpec.lean ====
/-
  The edge update of a message-passing layer, as a function of its five arrays, index by index.

  For edge `e` with end nodes `s = src e` and `d = dst e` (the two rows of the index array, each word read signed
  and clamped into the node range) the layer is `relu (concat (nf s + nf d, ef e) · Wᵀ + b)`: output `(e, o)` is

      max (∑ k < 256, feat e k · W (o, k) + b o) 0,     feat e k = nf (s, k) + nf (d, k)  for k < 128,
                                                        feat e k = ef (e, k − 128)        for k ≥ 128

  (`layerOut`). The same value with the node half of the product taken per NODE first — `P (n, o) = ∑ k < 128,
  nf (n, k) · W (o, k)`, then `(P (s, o) + P (d, o)) + ∑ k < 128, ef (e, k) · W (o, 128 + k)` — is `splitOut`. The two
  agree wherever the node features and the weights are real numbers (`splitOut_eq_layerOut`): the sum over the 256
  columns splits into its two halves (`sum_halves`), and on the first half `(x + y) · w = x · w + y · w`, which holds
  for reals and fails on the extended reals only at the infinities.

  The index words: a word that is not negative is left alone by the wrap `w < 0 ? w + 20000 : w`
  (`wrap_of_nonneg`), and clipping it into `[0, 19999]` first does not change the node it names (`node_clip`).
-/
import Idealize.ShloMosaic.PureOps.Ideal
import Idealize.ShloMosaic.Lib.ValueIdx
import Idealize.ShloMosaic.Lib.Affine
import Mathlib.Algebra.BigOperators.Fin

noncomputable section

namespace Cert.EdgeUpdate

open Idealize.ShloMosaic Idealize.ShloMosaic.ValueIdx
open scoped BigOperators

abbrev Snode : Shape := ⟨2, ![20000, 128]⟩
abbrev Spair : Shape := ⟨2, ![2, 640000]⟩
abbrev Sedge : Shape := ⟨2, ![640000, 128]⟩
abbrev Swt : Shape := ⟨2, ![128, 256]⟩
abbrev Sbias : Shape := ⟨1, ![128]⟩

/-! ## The index words -/

/-- The node a 32-bit index word names: the word read signed, clamped into `[0, 19999]`. -/
def node (w : BitVec 32) : Fin 20000 := ⟨min w.toInt.toNat 19999, by omega⟩

theorem toInt_zero32 : (0#32 : BitVec 32).toInt = 0 := by decide
theorem toInt_19999 : (19999#32 : BitVec 32).toInt = 19999 := by decide

/-- jnp's wrap of a negative index, `w < 0 ? w + 20000 : w`, leaves a word that is not negative as it is. -/
theorem wrap_of_nonneg (w : BitVec 32) (h : 0 ≤ w.toInt) :
    Scalar.select (IntOp.cmpi .slt w 0#32) (IntOp.addi w 20000#32) w = w := by
  have hc : ¬ IntOp.cmpi .slt w 0#32 = 1#1 := by
    rw [IntOp.cmpi_slt, toInt_zero32]; omega
  exact if_neg hc

/-- A word that is not negative, clipped into `[0, 19999]`, reads `min w 19999`. -/
theorem toInt_clip (w : BitVec 32) (h : 0 ≤ w.toInt) :
    (IntOp.minsi 19999#32 (IntOp.maxsi 0#32 w)).toInt = min w.toInt 19999 := by
  have h1 : IntOp.maxsi 0#32 w = w := by
    unfold IntOp.maxsi
    rw [if_neg]
    rw [BitVec.slt_iff_toInt_lt, toInt_zero32]; omega
  rw [h1]
  unfold IntOp.minsi
  by_cases hlt : (19999#32 : BitVec 32).slt w = true
  · rw [if_pos hlt, toInt_19999]
    rw [BitVec.slt_iff_toInt_lt, toInt_19999] at hlt
    omega
  · rw [if_neg hlt]
    rw [BitVec.slt_iff_toInt_lt, toInt_19999] at hlt
    omega

/-- Clipping first, then wrapping, names the same node as the word itself. -/
theorem node_clip (w : BitVec 32) (h : 0 ≤ w.toInt) :
    node (Scalar.select (IntOp.cmpi .slt (IntOp.minsi 19999#32 (IntOp.maxsi 0#32 w)) 0#32)
      (IntOp.addi (IntOp.minsi 19999#32 (IntOp.maxsi 0#32 w)) 20000#32) (IntOp.minsi 19999#32 (IntOp.maxsi 0#32 w))) = node w := by
  have hc := toInt_clip w h
  rw [wrap_of_nonneg _ (by rw [hc]; omega)]
  unfold node
  refine Fin.ext ?_
  show min (IntOp.minsi 19999#32 (IntOp.maxsi 0#32 w)).toInt.toNat 19999 = min w.toInt.toNat 19999
  rw [hc]
  omega

/-! ## The layer -/

section
variable (nf : Snode.Idx → EReal) (ei : IVec Spair 32) (ef : Sedge.Idx → EReal) (W : Swt.Idx → EReal)
  (b : Sbias.Idx → EReal)

/-- Edge `e`'s source node and target node. -/
def src (e : Fin 640000) : Fin 20000 := node (ei (ix2 0 e))
def dst (e : Fin 640000) : Fin 20000 := node (ei (ix2 1 e))

/-- Edge `e`'s concatenated feature row: the sum of its end nodes' features, then its own. -/
def feat (e : Fin 640000) (k : Fin 256) : EReal :=
  if h : k.val < 128 then nf (ix2 (src ei e) ⟨k.val, h⟩) + nf (ix2 (dst ei e) ⟨k.val, h⟩)
  else ef (ix2 e ⟨k.val - 128, by omega⟩)

/-- The layer: `relu (feat · Wᵀ + b)`. -/
def layerOut : Sedge.Idx → EReal := fun i =>
  max ((∑ k : Fin 256, feat nf ei ef (i 0) k * W (ix2 (i 1) k)) + b (ix1 (i 1))) 0

/-- Node `n`'s features through the node half of the weights. -/
def nodeProj (n : Fin 20000) (o : Fin 128) : EReal := ∑ k : Fin 128, nf (ix2 n k) * W (ix2 o ⟨k.val, by omega⟩)

/-- The layer with the node half of the product taken per node first. -/
def splitOut : Sedge.Idx → EReal := fun i =>
  max (((nodeProj nf W (src ei (i 0)) (i 1) + nodeProj nf W (dst ei (i 0)) (i 1))
    + ∑ k : Fin 128, ef (ix2 (i 0) k) * W (ix2 (i 1) ⟨128 + k.val, by omega⟩)) + b (ix1 (i 1))) 0

end

/-! ## The algebra -/

/-- A sum over 256 columns is the sum over the first 128 plus the sum over the last 128. -/
theorem sum_halves (x : Fin 256 → EReal) :
    ∑ k : Fin 256, x k
      = (∑ k : Fin 128, x ⟨k.val, by omega⟩) + ∑ k : Fin 128, x ⟨128 + k.val, by omega⟩ :=
  Fin.sum_univ_add (a := 128) (b := 128) x

/-- Multiplication distributes over a sum of two reals. -/
theorem add_mul_real (x y w : ℝ) : ((x : EReal) + (y : EReal)) * (w : EReal) = (x : EReal) * w + (y : EReal) * w := by
  rw [← EReal.coe_add, ← EReal.coe_mul, add_mul, EReal.coe_add, EReal.coe_mul, EReal.coe_mul]

theorem splitOut_eq_layerOut (nf : Snode.Idx → EReal) (ei : IVec Spair 32) (ef : Sedge.Idx → EReal)
    (W : Swt.Idx → EReal) (b : Sbias.Idx → EReal)
    (hnf : ∀ i, ∃ r : ℝ, nf i = (r : EReal)) (hW : ∀ i, ∃ r : ℝ, W i = (r : EReal)) :
    splitOut nf ei ef W b = layerOut nf ei ef W b := by
  funext i
  unfold splitOut layerOut
  congr 2
  rw [sum_halves]
  -- the edge half of the sum is the same on both sides, term by term; the node half is left
  congr 1
  · -- the node half: distribute, column by column
    unfold nodeProj
    rw [← Finset.sum_add_distrib]
    refine Finset.sum_congr rfl fun k _ => ?_
    have hk : ((⟨k.val, by omega⟩ : Fin 256)).val < 128 := k.isLt
    unfold feat
    rw [dif_pos hk]
    obtain ⟨x, hx⟩ := hnf (ix2 (src ei (i 0)) ⟨k.val, hk⟩)
    obtain ⟨y, hy⟩ := hnf (ix2 (dst ei (i 0)) ⟨k.val, hk⟩)
    obtain ⟨w, hw⟩ := hW (ix2 (i 1) ⟨k.val, by omega⟩)
    show nf (ix2 (src ei (i 0)) ⟨k.val, hk⟩) * W (ix2 (i 1) ⟨k.val, _⟩) + nf (ix2 (dst ei (i 0)) ⟨k.val, hk⟩) * W (ix2 (i 1) ⟨k.val, _⟩) = _
    rw [hx, hy, hw, add_mul_real]

end Cert.EdgeUpdate

end
-- ==== Proof.PreDecode.lean ====
/-
  What the precondition says, read back from its printed form: the node features and the weights hold real numbers
  (each entry's absolute value is below `+∞`, so the entry is neither infinity), and no word of the index array is
  negative. (The printed predicate also bounds the edge features and the bias; the proof does not need those.)
-/
import proofs.«408226_j20959440404595_3_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.EdgeUpdate.Pre

open Idealize.ShloMosaic Cert.Pre_finite_inputs

variable [Cert.Pre_finite_inputs.Facts]

instance : Subsingleton S_.Idx := ⟨fun a b => funext fun d => d.elim0⟩

/-- The pattern the predicate compares against is `+∞`. -/
theorem ofBits_inf : Ideal.ofBits .f32 0x7F800000#32 = ⊤ := by simp [Ideal.ofBits, Ideal.ieee]

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- The precondition, decoded. -/
theorem decode (a0 : FVec Ideal S20000x128 .f32) (a1 : IVec S2x640000 32) (a2 : FVec Ideal S640000x128 .f32)
    (a3 : FVec Ideal S128x256 .f32) (a4 : FVec Ideal S128 .f32)
    (h : fn (F := Ideal) a0 a1 a2 a3 a4 = fun _ => 1#1) :
    (∀ i, ∃ r : ℝ, a0 i = (r : EReal)) ∧ (∀ i, ∃ r : ℝ, a3 i = (r : EReal)) ∧ (∀ i, 0 ≤ (a1 i).toInt) := by
  have h0 := congrFun h ValueIdx.ix0
  dsimp only [fn, fn_part1] at h0
  obtain ⟨h18, h21⟩ := IntOp.andi_eq_one.1 h0
  obtain ⟨h13, -⟩ := IntOp.andi_eq_one.1 h18
  obtain ⟨h8, h12⟩ := IntOp.andi_eq_one.1 h13
  obtain ⟨h3, -⟩ := IntOp.andi_eq_one.1 h8
  refine ⟨fun i => ?_, fun i => ?_, fun i => ?_⟩
  · exact real_of_abs_lt (a0 i) (Host.reduce_andi_all _ _ _ _ _ h3 i)
  · exact real_of_abs_lt (a3 i) (Host.reduce_andi_all _ _ _ _ _ h12 i)
  · have hi := IntOp.cmpi_sge.1 (Host.reduce_andi_all _ _ _ _ _ h21 i)
    exact hi

end Cert.EdgeUpdate.Pre

end
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.RefValue.lean ====
/-
  The reference, read at an index: its result at `(e, o)` is the layer's value `layerOut` there — the concatenated
  row of edge `e` against row `o` of the weights, plus the bias, clipped below at zero — provided no index word is
  negative, so that jnp's wrap of negative indices does nothing and each gather reads the node its word names.
-/
import proofs.«408226_j20959440404595_3_alg».proof.Proof.Gen.ReferenceIdeal.Read
import proofs.«408226_j20959440404595_3_alg».proof.Proof.EdgeSpec
import proofs.«408226_j20959440404595_3_alg».proof.Proof.LibRowGatherScatter

noncomputable section

namespace Cert.ReferenceIdeal.RefValue

open Cert.ReferenceIdeal Cert.ReferenceIdeal.Gen Cert.ReferenceIdeal.Read
open Idealize.ShloMosaic Idealize.ShloMosaic.ValueIdx Cert.EdgeUpdate
open scoped BigOperators

variable (x0 : FVec Ideal S20000x128 .f32) (x1 : IVec S2x640000 32) (x2 : FVec Ideal S640000x128 .f32)
  (x3 : FVec Ideal S128x256 .f32) (x4 : FVec Ideal S128 .f32)

/-- The start word of the first gather at edge `e` is the index array's word `(0, e)`, when that is not negative. -/
theorem srcWord (e : Fin 640000) (h : 0 ≤ (x1 (ix2 0 e)).toInt) :
    val_main_v9 (F := Ideal) x1 (ix2 e 0) = x1 (ix2 0 e) := by
  have hi : idx_main_v0 (idx_main_v1 (idx_main_v9 (ix2 e (0 : Fin 1)))) = ix2 (0 : Fin 2) e :=
    funext fun a => Fin.ext (by
      match a with
      | ⟨0, _⟩ => rfl
      | ⟨1, _⟩ => exact Nat.mod_eq_of_lt e.isLt)
  rw [val_main_v9_apply, val_main_v8_apply, val_main_v5_apply, val_main_v7_apply, val_main_v1_apply,
    val_main_v0_apply, val_main_v4_apply, val_main_c_apply, val_main_v6_apply, val_main_c_0_apply, hi]
  exact wrap_of_nonneg _ h

/-- The start word of the second gather at edge `e` is the index array's word `(1, e)`, when that is not negative. -/
theorem dstWord (e : Fin 640000) (h : 0 ≤ (x1 (ix2 1 e)).toInt) :
    val_main_v16 (F := Ideal) x1 (ix2 e 0) = x1 (ix2 1 e) := by
  have hi : idx_main_v2 (idx_main_v3 (idx_main_v16 (ix2 e (0 : Fin 1)))) = ix2 (1 : Fin 2) e :=
    funext fun a => Fin.ext (by
      match a with
      | ⟨0, _⟩ => rfl
      | ⟨1, _⟩ => exact Nat.mod_eq_of_lt e.isLt)
  rw [val_main_v16_apply, val_main_v15_apply, val_main_v12_apply, val_main_v14_apply, val_main_v3_apply,
    val_main_v2_apply, val_main_v11_apply, val_main_c_1_apply, val_main_v13_apply, val_main_c_2_apply, hi]
  exact wrap_of_nonneg _ h

/-- The row gather at edge `e` reads the row of the node its start word names. -/
theorem gather_node (x : FVec Ideal S20000x128 .f32) (idx : IVec S640000x1 32) (e : Fin 640000) (k : Fin 128)
    (w : BitVec 32) (hw : idx (ix2 e 0) = w) :
    Host.gather gather_S20000x128_S640000x1_S640000x128_1_0_n_n_0_1_1128 x idx (ix2 e k) = x (ix2 (node w) k) := by
  subst hw
  exact Cert.Lib.RowGS.gather_rows_apply (by decide) _ rfl rfl rfl rfl rfl rfl rfl x idx e k

/-- The summed end-node features of edge `e`, column `k`. -/
theorem pair_apply (hx1 : ∀ i, 0 ≤ (x1 i).toInt) (e : Fin 640000) (k : Fin 128) :
    val_main_v18 (F := Ideal) x0 x1 (ix2 e k) = x0 (ix2 (src x1 e) k) + x0 (ix2 (dst x1 e) k) := by
  rw [val_main_v18_apply]
  show val_main_v10 (F := Ideal) x0 x1 (ix2 e k) + val_main_v17 (F := Ideal) x0 x1 (ix2 e k) = _
  unfold val_main_v10 val_main_v17
  rw [gather_node x0 _ e k _ (srcWord x1 e (hx1 _)), gather_node x0 _ e k _ (dstWord x1 e (hx1 _))]
  rfl

/-- The concatenated row of edge `e`. -/
theorem concat_apply (hx1 : ∀ i, 0 ≤ (x1 i).toInt) (e : Fin 640000) (k : Fin 256) :
    val_main_v19 (F := Ideal) x0 x1 x2 (ix2 e k) = feat x0 x1 x2 e k := by
  unfold val_main_v19 feat
  by_cases hk : k.val < 128
  · rw [dif_pos hk, ← pair_apply x0 x1 hx1 e ⟨k.val, hk⟩]
    exact concatenate_pair_apply_left (t := S640000x256) (s₁ := S640000x128) (s₂ := S640000x128) 1
      (val_main_v18 (F := Ideal) x0 x1) x2 concatenates_S640000x128_S640000x128_S640000x256_d1 (ix2 e k) rfl
      (ix2 e ⟨k.val, hk⟩) (fun b => by
      match b with
      | ⟨0, _⟩ => rfl
      | ⟨1, _⟩ => rfl)
  · rw [dif_neg hk]
    exact concatenate_pair_apply_right (t := S640000x256) (s₁ := S640000x128) (s₂ := S640000x128) 1
      (val_main_v18 (F := Ideal) x0 x1) x2 concatenates_S640000x128_S640000x128_S640000x256_d1 (ix2 e k) rfl rfl
      (ix2 e ⟨k.val - 128, by omega⟩) (fun b hb => by
      match b with
      | ⟨0, _⟩ => rfl
      | ⟨1, _⟩ => exact absurd rfl hb) (by show k.val - 128 + 128 = k.val; omega)

/-- THE REFERENCE IS THE LAYER: its result array, index by index. -/
theorem result_eq (hx1 : ∀ i, 0 ≤ (x1 i).toInt) :
    val_main_v25 (F := Ideal) x0 x1 x2 x3 x4 = layerOut x0 x1 x2 x3 x4 := by
  funext i
  obtain ⟨e, o, rfl⟩ : ∃ (e : Fin 640000) (o : Fin 128), i = ix2 e o := ⟨i 0, i 1, eq_ix2 i⟩
  have hl : ∀ k : Fin 256, lidx_main_v21 (ix2 e o) k = ix2 e k := fun k =>
    funext fun a => Fin.ext (by match a with | ⟨0, _⟩ => rfl | ⟨1, _⟩ => rfl)
  have hr : ∀ k : Fin 256, idx_main_v20 (ridx_main_v21 (ix2 e o) k) = ix2 o k := fun k =>
    funext fun a => Fin.ext (by match a with | ⟨0, _⟩ => rfl | ⟨1, _⟩ => rfl)
  have hb : idx_main_v22 (idx_main_v23 (ix2 e o)) = ix1 o :=
    funext fun a => Fin.ext (by match a with | ⟨0, _⟩ => rfl)
  rw [val_main_v25_apply, val_main_v24_apply, val_main_v21_apply, val_main_v23_apply, val_main_v22_apply,
    val_main_call0_v0_apply, val_main_call0_cst_apply, hb]
  show max ((∑ k : Fin 256, _) + x4 (ix1 o)) (Ideal.ofBits .f32 0x00000000#32) = _
  rw [Ideal.ofBits_zero_f32]
  unfold layerOut
  congr 2
  refine Finset.sum_congr rfl fun k _ => ?_
  rw [hl k, val_main_v20_apply, hr k, concat_apply x0 x1 x2 hx1 e k]

end Cert.ReferenceIdeal.RefValue

end
-- ==== Proof.KernelHost.lean ====
/-
  The arrays the kernel's one pallas_call finds, read at an index. Before the call @main clips the index words into
  `[0, 19999]`, multiplies the node features by the node half of the transposed weights (`nfW (n, o) = ∑ k < 128,
  nf (n, k) · W (o, k)`), gathers the rows of that product at the two clipped index rows and adds them, cuts the edge
  half out of the transposed weights, and lays the bias out as a row. So, where no index word is negative:

    operand 0 at `(e, o)` is `nfW (src e, o) + nfW (dst e, o)`           (`pairW_apply`),
    operand 2 at `(k, o)` is `W (o, 128 + k)`                            (`w2_apply`),
    operand 3 at `(0, o)` is `b o`                                       (`bRow_apply`),

  and operand 1 is the edge-feature argument itself.
-/
import proofs.«408226_j20959440404595_3_alg».proof.Proof.Gen.KernelIdeal.Frame
import proofs.«408226_j20959440404595_3_alg».proof.Proof.EdgeSpec
import proofs.«408226_j20959440404595_3_alg».proof.Proof.LibRowGatherScatter
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo
open Cert.EdgeUpdate
open scoped BigOperators

/-! ## The host operations before the call, as functions of the arguments -/

/-- The index words clipped into `[0, 19999]`. -/
def clipped (a1 : IVec S2x640000 32) : IVec S2x640000 32 :=
  minsi (broadcastInDim S2x640000 ![] bcast_S_S2x640000 (id (constantI S_ 32 19999#32)))
    (maxsi (broadcastInDim S2x640000 ![] bcast_S_S2x640000 (id (constantI S_ 32 0#32))) a1)

/-- Row `0` (the sources) and row `1` (the targets) of the clipped index array. -/
def idxRow0 (a1 : IVec S2x640000 32) : IVec S640000 32 :=
  shapeCast _ (extractStridedSlice S1x640000 ![0, 0] (clipped a1) slices_S2x640000_S1x640000_0_0) shapeCasts_S1x640000_S640000
def idxRow1 (a1 : IVec S2x640000 32) : IVec S640000 32 :=
  shapeCast _ (extractStridedSlice S1x640000 ![1, 0] (clipped a1) slices_S2x640000_S1x640000_1_0) shapeCasts_S1x640000_S640000

/-- jnp's wrap of negative indices, and the index vector laid out as a column of start indices. -/
def wrapped (r : IVec S640000 32) : IVec S640000x1 32 :=
  broadcastInDim S640000x1 ![0] bcast_S640000_S640000x1_0
    (select (cmpi .slt r (broadcastInDim S640000 ![] bcast_S_S640000 (constantI S_ 32 0#32)))
      (addi r (broadcastInDim S640000 ![] bcast_S_S640000 (constantI S_ 32 20000#32))) r)

/-- The transposed weights, and their node half and edge half. -/
def wT (a3 : FVec Ideal S128x256 .f32) : FVec Ideal S256x128 .f32 := transpose S256x128 [1, 0] a3 transposes_S128x256_S256x128_1_0
def w1 (a3 : FVec Ideal S128x256 .f32) : FVec Ideal S128x128 .f32 :=
  extractStridedSlice S128x128 ![0, 0] (wT a3) slices_S256x128_S128x128_0_0
def w2 (a3 : FVec Ideal S128x256 .f32) : FVec Ideal S128x128 .f32 :=
  extractStridedSlice S128x128 ![128, 0] (wT a3) slices_S256x128_S128x128_128_0

/-- The node features through the node half of the weights. -/
def nfW (a0 : FVec Ideal S20000x128 .f32) (a3 : FVec Ideal S128x256 .f32) : FVec Ideal S20000x128 .f32 :=
  Host.dotGeneral dot_S20000x128_S128x128_S20000x128_1_0_0_1_n_n (some .fp32) a0 (w1 a3)

/-- The two gathered rows of that product, added. -/
def pairW (a0 : FVec Ideal S20000x128 .f32) (a1 : IVec S2x640000 32) (a3 : FVec Ideal S128x256 .f32) : FVec Ideal S640000x128 .f32 :=
  addf (Host.gather gather_S20000x128_S640000x1_S640000x128_1_0_n_n_0_1_1128 (nfW a0 a3) (wrapped (idxRow0 a1)))
    (Host.gather gather_S20000x128_S640000x1_S640000x128_1_0_n_n_0_1_1128 (nfW a0 a3) (wrapped (idxRow1 a1)))

/-- The bias as a row. -/
def bRow (a4 : FVec Ideal S128 .f32) : FVec Ideal S1x128 .f32 := shapeCast _ a4 shapeCasts_S128_S1x128

/-! ## Each read at an index -/

theorem clipped_apply (a1 : IVec S2x640000 32) (j : S2x640000.Idx) :
    clipped a1 j = IntOp.minsi 19999#32 (IntOp.maxsi 0#32 (a1 j)) := rfl

theorem idxRow0_apply (a1 : IVec S2x640000 32) (e : Fin 640000) : idxRow0 a1 (ix1 e) = clipped a1 (ix2 0 e) := by
  unfold idxRow0
  rw [shapeCast_apply _ shapeCasts_S1x640000_S640000 (ix1 e) (ix2 (0 : Fin 1) e)
    (by rewrite [Shape.rowMajor_val_two, Shape.rowMajor_val_one]; show 0 * 640000 + e.val = e.val; omega)]
  exact extractStridedSlice_apply ![0, 0] _ slices_S2x640000_S1x640000_0_0 (ix2 (0 : Fin 1) e) (ix2 (0 : Fin 2) e) (fun a => by
    match a with
    | ⟨0, _⟩ => rfl
    | ⟨1, _⟩ => show e.val = 0 + e.val; omega)

theorem idxRow1_apply (a1 : IVec S2x640000 32) (e : Fin 640000) : idxRow1 a1 (ix1 e) = clipped a1 (ix2 1 e) := by
  unfold idxRow1
  rw [shapeCast_apply _ shapeCasts_S1x640000_S640000 (ix1 e) (ix2 (0 : Fin 1) e)
    (by rewrite [Shape.rowMajor_val_two, Shape.rowMajor_val_one]; show 0 * 640000 + e.val = e.val; omega)]
  exact extractStridedSlice_apply ![1, 0] _ slices_S2x640000_S1x640000_1_0 (ix2 (0 : Fin 1) e) (ix2 (1 : Fin 2) e) (fun a => by
    match a with
    | ⟨0, _⟩ => rfl
    | ⟨1, _⟩ => show e.val = 0 + e.val; omega)

theorem wrapped_apply (r : IVec S640000 32) (e : Fin 640000) :
    wrapped r (ix2 e 0) = Scalar.select (IntOp.cmpi .slt (r (ix1 e)) 0#32) (IntOp.addi (r (ix1 e)) 20000#32) (r (ix1 e)) := by
  unfold wrapped
  rw [broadcastInDim_apply _ bcast_S640000_S640000x1_0 _ (ix2 e (0 : Fin 1)) (ix1 e) (fun a => by
    match a with
    | ⟨0, _⟩ => show e.val = if (640000 : Nat) = 1 then 0 else e.val; rw [if_neg (by decide)])]
  rfl

/-- The start word of the source gather names the source node; of the target gather, the target node. -/
theorem node_wrapped0 (a1 : IVec S2x640000 32) (e : Fin 640000) (h : 0 ≤ (a1 (ix2 0 e)).toInt) :
    node (wrapped (idxRow0 a1) (ix2 e 0)) = src a1 e := by
  rw [wrapped_apply, idxRow0_apply, clipped_apply]
  exact node_clip _ h
theorem node_wrapped1 (a1 : IVec S2x640000 32) (e : Fin 640000) (h : 0 ≤ (a1 (ix2 1 e)).toInt) :
    node (wrapped (idxRow1 a1) (ix2 e 0)) = dst a1 e := by
  rw [wrapped_apply, idxRow1_apply, clipped_apply]
  exact node_clip _ h

theorem wT_apply (a3 : FVec Ideal S128x256 .f32) (k : Fin 256) (o : Fin 128) : wT a3 (ix2 k o) = a3 (ix2 o k) := by
  unfold wT
  exact transpose_apply [1, 0] a3 transposes_S128x256_S256x128_1_0 (ix2 k o) (ix2 o k) (fun b => by
    match b with
    | ⟨0, _⟩ => rfl
    | ⟨1, _⟩ => rfl)

theorem w1_apply (a3 : FVec Ideal S128x256 .f32) (k : Fin 128) (o : Fin 128) :
    w1 a3 (ix2 k o) = a3 (ix2 o ⟨k.val, by omega⟩) := by
  unfold w1
  rw [extractStridedSlice_apply ![0, 0] (wT a3) slices_S256x128_S128x128_0_0 (ix2 k o) (ix2 (⟨k.val, by omega⟩ : Fin 256) o) (fun a => by
    match a with
    | ⟨0, _⟩ => show k.val = 0 + k.val; omega
    | ⟨1, _⟩ => show o.val = 0 + o.val; omega)]
  exact wT_apply a3 _ o

theorem w2_apply (a3 : FVec Ideal S128x256 .f32) (k : Fin 128) (o : Fin 128) :
    w2 a3 (ix2 k o) = a3 (ix2 o ⟨128 + k.val, by omega⟩) := by
  unfold w2
  rw [extractStridedSlice_apply ![128, 0] (wT a3) slices_S256x128_S128x128_128_0 (ix2 k o) (ix2 (⟨128 + k.val, by omega⟩ : Fin 256) o) (fun a => by
    match a with
    | ⟨0, _⟩ => rfl
    | ⟨1, _⟩ => show o.val = 0 + o.val; omega)]
  exact wT_apply a3 _ o

theorem bRow_apply (a4 : FVec Ideal S128 .f32) (o : Fin 128) : bRow a4 (ix2 0 o) = a4 (ix1 o) := by
  unfold bRow
  exact shapeCast_apply a4 shapeCasts_S128_S1x128 (ix2 (0 : Fin 1) o) (ix1 o)
    (by rewrite [Shape.rowMajor_val_two, Shape.rowMajor_val_one]; show o.val = 0 * 128 + o.val; omega)

/-! ### The host matrix product -/

theorem lhs_nfW_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch by decide), dif_pos (show (0 : Fin S20000x128.rank) ∈ dot_S20000x128_S128x128_S20000x128_1_0_0_1_n_n.lhsNonContracting by decide)]
  rfl
theorem lhs_nfW_1 (i : S20000x128.Idx) (q : dot_S20000x128_S128x128_S20000x128_1_0_0_1_n_n.contr.Idx) :
    (dot_S20000x128_S128x128_S20000x128_1_0_0_1_n_n.lhsIdx i q 1).val = (q ⟨0, by decide⟩).val :=
  dot_S20000x128_S128x128_S20000x128_1_0_0_1_n_n.lhsIdx_val_of_single rfl i q
theorem rhs_nfW_0 (i : S20000x128.Idx) (q : dot_S20000x128_S128x128_S20000x128_1_0_0_1_n_n.contr.Idx) :
    (dot_S20000x128_S128x128_S20000x128_1_0_0_1_n_n.rhsIdx i q 0).val = (q ⟨0, by decide⟩).val :=
  dot_S20000x128_S128x128_S20000x128_1_0_0_1_n_n.rhsIdx_val_of_single rfl i q
theorem rhs_nfW_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch by decide), dif_pos (show (1 : Fin S128x128.rank) ∈ dot_S20000x128_S128x128_S20000x128_1_0_0_1_n_n.rhsNonContracting by decide)]
  rfl

/-- The node features through the node half of the weights, at node `n` and output column `o`. -/
theorem nfW_apply (a0 : FVec Ideal S20000x128 .f32) (a3 : FVec Ideal S128x256 .f32) (n : Fin 20000) (o : Fin 128) :
    nfW a0 a3 (ix2 n o) = nodeProj a0 a3 n o := by
  unfold nfW nodeProj
  generalize hw : w1 a3 = y1
  simp only [Host.dotGeneral]
  rw [Ideal.dotGeneral_apply, ← Equiv.sum_comp (ValueIdx.contrEquiv1 dot_S20000x128_S128x128_S20000x128_1_0_0_1_n_n 128 rfl rfl).symm]
  refine Finset.sum_congr rfl fun k _ => ?_
  have hk := ValueIdx.contrEquiv1_symm_val dot_S20000x128_S128x128_S20000x128_1_0_0_1_n_n 128 rfl rfl k
  have el : dot_S20000x128_S128x128_S20000x128_1_0_0_1_n_n.lhsIdx (ix2 n o) ((ValueIdx.contrEquiv1 dot_S20000x128_S128x128_S20000x128_1_0_0_1_n_n 128 rfl rfl).symm k) = ix2 n k := funext fun a => Fin.ext (by
    match a with
    | ⟨0, _⟩ => exact lhs_nfW_0 _ _
    | ⟨1, _⟩ => exact (lhs_nfW_1 _ _).trans hk)
  have er : dot_S20000x128_S128x128_S20000x128_1_0_0_1_n_n.rhsIdx (ix2 n o) ((ValueIdx.contrEquiv1 dot_S20000x128_S128x128_S20000x128_1_0_0_1_n_n 128 rfl rfl).symm k) = ix2 k o := funext fun a => Fin.ext (by
    match a with
    | ⟨0, _⟩ => exact (rhs_nfW_0 _ _).trans hk
    | ⟨1, _⟩ => exact rhs_nfW_1 _ _)
  rw [el, er, ← hw, w1_apply]

/-! ### The gathered pair -/

/-- The row gather at edge `e` reads the row of the node its start word names. -/
theorem gather_node (x : FVec Ideal S20000x128 .f32) (idx : IVec S640000x1 32) (e : Fin 640000) (k : Fin 128) :
    Host.gather gather_S20000x128_S640000x1_S640000x128_1_0_n_n_0_1_1128 x idx (ix2 e k) = x (ix2 (node (idx (ix2 e 0))) k) :=
  Cert.Lib.RowGS.gather_rows_apply (by decide) _ rfl rfl rfl rfl rfl rfl rfl x idx e k

theorem pairW_apply (a0 : FVec Ideal S20000x128 .f32) (a1 : IVec S2x640000 32) (a3 : FVec Ideal S128x256 .f32)
    (h1 : ∀ i, 0 ≤ (a1 i).toInt) (e : Fin 640000) (o : Fin 128) :
    pairW a0 a1 a3 (ix2 e o) = nodeProj a0 a3 (src a1 e) o + nodeProj a0 a3 (dst a1 e) o := by
  unfold pairW
  show Host.gather _ (nfW a0 a3) (wrapped (idxRow0 a1)) (ix2 e o) + Host.gather _ (nfW a0 a3) (wrapped (idxRow1 a1)) (ix2 e o) = _
  rw [gather_node, gather_node, node_wrapped0 a1 e (h1 _), node_wrapped1 a1 e (h1 _), nfW_apply, nfW_apply]

/-! ## The region's arrays are those functions of the arguments -/

variable (m : (ℓ : Loc nD τ sig) → Buf (Elt Ideal) ℓ)

set_option maxHeartbeats 2000000 in
theorem V_pairW (c : Dev nD) :
    (V m c main_v23 : S640000x128.Idx → EReal)
      = pairW (m ((c : Thread nD τ).loc main_arg0)) (m ((c : Thread nD τ).loc main_arg1)) (m ((c : Thread nD τ).loc main_arg3)) := by
  dsimp only [V]
  simp only [hostOps0, hostOps0_1, hostOps0_2, List.flatten_cons, List.flatten_nil, List.append_nil, List.cons_append,
    List.nil_append]
  unfold pairW nfW w1 wT wrapped idxRow0 idxRow1 clipped
  after_results_simp
  rfl

theorem V_w2 (c : Dev nD) :
    (V m c main_v7 : S128x128.Idx → EReal) = w2 (m ((c : Thread nD τ).loc main_arg3)) := by
  dsimp only [V]
  simp only [hostOps0, hostOps0_1, hostOps0_2, List.flatten_cons, List.flatten_nil, List.append_nil, List.cons_append,
    List.nil_append]
  after_results
  rfl

theorem V_bRow (c : Dev nD) :
    (V m c main_v24 : S1x128.Idx → EReal) = bRow (m ((c : Thread nD τ).loc main_arg4)) := by
  dsimp only [V]
  simp only [hostOps0, hostOps0_1, hostOps0_2, List.flatten_cons, List.flatten_nil, List.append_nil, List.cons_append,
    List.nil_append]
  after_results
  rfl

end Cert.KernelIdeal.HostValue

end
-- ==== Proof.KernelValue.lean ====
/-
  What the kernel's output array holds after the run, index by index.

  The grid has 100 points; point `t` works on the 6400 edges `6400 t … 6400 t + 6399`: it stages that block of
  operand 0 (the gathered node-pair product) and of the edge features, the whole edge half of the weights and the bias
  row, and stores, at `(r, o)` of its output block,

      max ((pair (r, o) + ∑ k < 128, ef (r, k) · w (k, o)) + b (0, o)) 0           (`pay_apply`).

  Each operand read where the output block's rectangle says, this is `splitOut` of the arguments at edge `6400 t + r`
  (`flushed_eq`); edge `e` lies in the block of point `e / 6400`, so the blocks cover the array (`covered`) and the
  array ends holding `splitOut` of the arguments (`final`, `run`).
-/
import proofs.«408226_j20959440404595_3_alg».proof.Proof.Gen.KernelIdeal.Value
import proofs.«408226_j20959440404595_3_alg».proof.Proof.KernelHost
import Idealize.ShloMosaic.Lib.Pipeline.Value
import Idealize.ShloMosaic.Lib.ValueLayout
import Idealize.ShloMosaic.PureOps.Ideal.Laws

set_option maxRecDepth 16384

noncomputable section

namespace Cert.KernelIdeal.BlockValue

open Cert.KernelIdeal Cert.KernelIdeal.Gen Cert.KernelIdeal.Value Cert.KernelIdeal.HostValue
open Idealize.ShloMosaic Idealize.ShloMosaic.TcCoe Idealize.ShloMosaic.ValueIdx Idealize.SL.Sem
open Idealize.ShloMosaic.Pipeline (Dat)
open Cert.EdgeUpdate
open scoped BigOperators

/-! ## The body's matrix product at an index -/

theorem lhs_mm_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhs_mm_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem rhs_mm_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem rhs_mm_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- The block's product with the edge half of the weights, into a zero accumulator: a plain sum over the 128 columns. -/
theorem mm_apply (a : FVec Ideal S6400x128 .bf16) (b : FVec Ideal S128x128 .bf16) (r : Fin 6400) (o : Fin 128) :
    matmul dot_S6400x128_S128x128_S6400x128_1_0_0_1_n_n none a b (constant S6400x128 .f32 0x00000000#32) (ix2 r o)
      = ∑ k : Fin 128, a (ix2 r k) * b (ix2 k o) := by
  simp only [matmul]
  rw [Ideal.matmul_constant_zero_apply, ← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  have el : dot_S6400x128_S128x128_S6400x128_1_0_0_1_n_n.lhsIdx (ix2 r o) ((ValueIdx.contrEquiv1 dot_S6400x128_S128x128_S6400x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S6400x128_S128x128_S6400x128_1_0_0_1_n_n.rhsIdx (ix2 r o) ((ValueIdx.contrEquiv1 dot_S6400x128_S128x128_S6400x128_1_0_0_1_n_n 128 rfl rfl).symm k) = ix2 k o := funext fun a => Fin.ext (by
    match a with
    | ⟨0, _⟩ => exact (rhs_mm_0 _ _).trans hk
    | ⟨1, _⟩ => exact rhs_mm_1 _ _)
  rw [el, er]

/-! ## The payload at an index -/

/-- What the body stores at `(r, o)` of its output block, from its four loaded blocks. -/
theorem pay_apply (v0 : FVec Ideal S6400x128 .f32) (v2 : FVec Ideal S128x128 .f32) (v6 : FVec Ideal S6400x128 .f32)
    (v9 : FVec Ideal S1x128 .f32) (r : Fin 6400) (o : Fin 128) :
    k0_pay1 (F := Ideal) v0 v2 v6 v9 (ix2 r o)
      = max ((v6 (ix2 r o) + ∑ k : Fin 128, v0 (ix2 r k) * v2 (ix2 k o)) + v9 (ix2 0 o)) 0 := by
  unfold k0_pay1
  show max ((shapeCast S6400x128 v6 _ (ix2 r o)
      + matmul dot_S6400x128_S128x128_S6400x128_1_0_0_1_n_n none (truncf .bf16 v0 _) (truncf .bf16 (shapeCast S128x128 v2 _) _)
          (constant S6400x128 .f32 0x00000000#32) (ix2 r o))
      + broadcastTo S6400x128 (shapeCast S1x128 v9 _) _ (ix2 r o)) (Ideal.ofBits .f32 0x00000000#32) = _
  rw [mm_apply, shapeCast_self, shapeCast_self, shapeCast_self, Ideal.ofBits_zero_f32, broadcastTo_1b_ab_apply]
  rfl

/-! ## The blocks -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three edge-sized windows are at block `(t, 0)` at point `t`, the weights
    and the bias at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The edge that row `r` of point `t`'s block is. -/
def edge (t : Fin cfg0.N) (r : Fin 6400) : Fin 640000 :=
  ⟨t.val * 6400 + r.val, by have ht : t.val < 100 := t.isLt; have := r.isLt; omega⟩

/-- Where an index of a point's block lies in its array, window by window. -/
theorem emb0 (t : Fin cfg0.N) (r : Fin 6400) (o : Fin 128) :
    ((cfg0.win 0).blk t).view.emb (ix2 r o) = ix2 (edge t r) o := by
  obtain ⟨e0, e1, -⟩ := idx_facts t
  funext a; apply Fin.ext
  match a with
  | ⟨0, _⟩ => show win0_0.index t (0 : Fin 2) * 6400 + 1 * r.val = t.val * 6400 + r.val; omega
  | ⟨1, _⟩ => show win0_0.index t (1 : Fin 2) * 128 + 1 * o.val = o.val; omega
theorem emb1 (t : Fin cfg0.N) (r : Fin 6400) (o : Fin 128) :
    ((cfg0.win 1).blk t).view.emb (ix2 r o) = ix2 (edge t r) o := by
  obtain ⟨-, -, e0, e1, -⟩ := idx_facts t
  funext a; apply Fin.ext
  match a with
  | ⟨0, _⟩ => show win0_1.index t (0 : Fin 2) * 6400 + 1 * r.val = t.val * 6400 + r.val; omega
  | ⟨1, _⟩ => show win0_1.index t (1 : Fin 2) * 128 + 1 * o.val = o.val; omega
theorem emb2 (t : Fin cfg0.N) (k : Fin 128) (o : Fin 128) :
    ((cfg0.win 2).blk t).view.emb (ix2 k o) = ix2 k o := by
  obtain ⟨-, -, -, -, e0, e1, -⟩ := idx_facts t
  funext a; apply Fin.ext
  match a with
  | ⟨0, _⟩ => show win0_2.index t (0 : Fin 2) * 128 + 1 * k.val = k.val; omega
  | ⟨1, _⟩ => show win0_2.index t (1 : Fin 2) * 128 + 1 * o.val = o.val; omega
theorem emb3 (t : Fin cfg0.N) (z : Fin 1) (o : Fin 128) :
    ((cfg0.win 3).blk t).view.emb (ix2 z o) = ix2 z o := by
  obtain ⟨-, -, -, -, -, -, e0, e1, -⟩ := idx_facts t
  funext a; apply Fin.ext
  match a with
  | ⟨0, _⟩ => show win0_3.index t (0 : Fin 2) * 1 + 1 * z.val = z.val; omega
  | ⟨1, _⟩ => show win0_3.index t (1 : Fin 2) * 128 + 1 * o.val = o.val; omega
theorem emb4 (t : Fin cfg0.N) (r : Fin 6400) (o : Fin 128) :
    ((cfg0.win 4).blk t).view.emb (ix2 r o) = ix2 (edge t r) o := by
  obtain ⟨-, -, -, -, -, -, -, -, e0, e1⟩ := idx_facts t
  funext a; apply Fin.ext
  match a with
  | ⟨0, _⟩ => show win0_4.index t (0 : Fin 2) * 6400 + 1 * r.val = t.val * 6400 + r.val; omega
  | ⟨1, _⟩ => show win0_4.index t (1 : Fin 2) * 128 + 1 * o.val = o.val; omega

/-- The four input blocks at point `t`, at their literal types. -/
abbrev pairBlk (c : Dev nD) (t : Fin cfg0.N) : FVec Ideal S6400x128 .f32 := iblk m c 0 t
abbrev efBlk (c : Dev nD) (t : Fin cfg0.N) : FVec Ideal S6400x128 .f32 := iblk m c 1 t
abbrev wBlk (c : Dev nD) (t : Fin cfg0.N) : FVec Ideal S128x128 .f32 := iblk m c 2 t
abbrev bBlk (c : Dev nD) (t : Fin cfg0.N) : FVec Ideal S1x128 .f32 := iblk m c 3 t

section Blocks
variable (c : Dev nD) (t : Fin cfg0.N)

/-- The node-pair block: the two end nodes' projections, added. -/
theorem pairBlk_apply (h1 : ∀ i, 0 ≤ (m ((c : Thread nD τ).loc main_arg1) i).toInt) (r : Fin 6400) (o : Fin 128) :
    pairBlk m c t (ix2 r o)
      = nodeProj (m ((c : Thread nD τ).loc main_arg0)) (m ((c : Thread nD τ).loc main_arg3)) (src (m ((c : Thread nD τ).loc main_arg1)) (edge t r)) o
        + nodeProj (m ((c : Thread nD τ).loc main_arg0)) (m ((c : Thread nD τ).loc main_arg3)) (dst (m ((c : Thread nD τ).loc main_arg1)) (edge t r)) o := by
  show (V m c main_v23 : S640000x128.Idx → EReal) (((cfg0.win 0).blk t).view.emb (ix2 r o)) = _
  rw [emb0, V_pairW]
  exact pairW_apply _ _ _ h1 _ o

/-- The edge-feature block. -/
theorem efBlk_apply (r : Fin 6400) (k : Fin 128) :
    efBlk m c t (ix2 r k) = m ((c : Thread nD τ).loc main_arg2) (ix2 (edge t r) k) := by
  show (V m c main_arg2 : S640000x128.Idx → EReal) (((cfg0.win 1).blk t).view.emb (ix2 r k)) = _
  rw [emb1, V_main_arg2]

/-- The weights block: the edge half of the transposed weights. -/
theorem wBlk_apply (k : Fin 128) (o : Fin 128) :
    wBlk m c t (ix2 k o) = m ((c : Thread nD τ).loc main_arg3) (ix2 o ⟨128 + k.val, by omega⟩) := by
  show (V m c main_v7 : S128x128.Idx → EReal) (((cfg0.win 2).blk t).view.emb (ix2 k o)) = _
  rw [emb2, V_w2]
  exact w2_apply _ k o

/-- The bias block. -/
theorem bBlk_apply (o : Fin 128) : bBlk m c t (ix2 0 o) = m ((c : Thread nD τ).loc main_arg4) (ix1 o) := by
  show (V m c main_v24 : S1x128.Idx → EReal) (((cfg0.win 3).blk t).view.emb (ix2 (0 : Fin 1) o)) = _
  rw [emb3, V_bRow]
  exact bRow_apply _ o

end Blocks

/-- The layer with the node half taken per node first, at edge `e` and output column `o`. -/
theorem splitOut_apply (nf : Snode.Idx → EReal) (ei : IVec Spair 32) (ef : Sedge.Idx → EReal) (W : Swt.Idx → EReal)
    (b : Sbias.Idx → EReal) (e : Fin 640000) (o : Fin 128) :
    splitOut nf ei ef W b (ix2 e o)
      = max (((nodeProj nf W (src ei e) o + nodeProj nf W (dst ei e) o)
          + ∑ k : Fin 128, ef (ix2 e k) * W (ix2 o ⟨128 + k.val, by omega⟩)) + b (ix1 o)) 0 := rfl

/-- The layer of the arguments as launched. -/
abbrev outOf (c : Dev nD) : S640000x128.Idx → EReal :=
  splitOut (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the layer's value. -/
theorem flushed_eq (c : Dev nD) (h1 : ∀ i, 0 ≤ (m ((c : Thread nD τ).loc main_arg1) i).toInt) (t : Fin cfg0.N) :
    (dats m 0 c).flushed 4 t = ((cfg0.win 4).blk t).view.read (Elt Ideal) (outOf m c) := by
  rw [Value.flushed4]
  unfold out0_4
  rw [View.canon_unit_zero hz]
  simp only [View.ld_unit_zero (S := S6400x128) hz, View.ld_unit_zero (S := S128x128) hz, View.ld_unit_zero (S := S1x128) hz]
  funext j
  obtain ⟨r, o, rfl⟩ : ∃ (r : Fin 6400) (o : Fin 128), j = ix2 r o := ⟨j 0, j 1, eq_ix2 j⟩
  show k0_pay1 (F := Ideal) (efBlk m c t) (wBlk m c t) (pairBlk m c t) (bBlk m c t) (ix2 r o)
    = outOf m c (((cfg0.win 4).blk t).view.emb (ix2 r o))
  rw [emb4]
  refine (pay_apply (efBlk m c t) (wBlk m c t) (pairBlk m c t) (bBlk m c t) r o).trans ?_
  rw [pairBlk_apply m c t h1 r o, bBlk_apply m c t o]
  show _ = splitOut _ _ _ _ _ (ix2 (edge t r) o)
  rw [splitOut_apply]
  congr 3
  refine Finset.sum_congr rfl fun k _ => ?_
  rw [efBlk_apply m c t r k, wBlk_apply m c t k o]

/-! ## The cover -/

/-- An index of the array is in point `t`'s block iff each coordinate is in the block's range on its axis. -/
theorem mem_blk (t : Fin cfg0.N) (i : S640000x128.Idx) :
    i ∈ ((cfg0.win 4).blk t).view.set ↔ ∀ a : Fin 2, win0_4.index t a * S6400x128.size a ≤ (i a).val ∧ (i a).val < win0_4.index t a * S6400x128.size a + S6400x128.size a := by
  show i ∈ ((View.whole main_v25).slice (win0_4.rect t)).set ↔ _
  rw [View.set_slice_whole, Rect.mem_set_unit]
  exact Iff.rfl

/-- Edge `e` is in the block of point `e / 6400`: the output's blocks cover the array. -/
theorem covered (i : S640000x128.Idx) :
    ∃ t : Fin cfg0.N, (cfg0.win 4).flush t = true ∧ i ∈ ((cfg0.win 4).blk t).view.set := by
  have hi0 : (i 0).val < 640000 := (i 0).isLt
  have hi1 : (i 1).val < 128 := (i 1).isLt
  have hq : (i 0).val / 6400 < 100 := by omega
  obtain ⟨-, -, -, -, -, -, -, -, e0, e1⟩ := idx_facts (⟨(i 0).val / 6400, hq⟩ : Fin cfg0.N)
  refine ⟨⟨(i 0).val / 6400, hq⟩, flush0_4 _, ?_⟩
  rw [mem_blk]
  intro a
  match a with
  | ⟨0, _⟩ =>
    show win0_4.index ⟨(i 0).val / 6400, hq⟩ (0 : Fin 2) * 6400 ≤ (i 0).val ∧ (i 0).val < win0_4.index ⟨(i 0).val / 6400, hq⟩ (0 : Fin 2) * 6400 + 6400
    rw [e0]
    show (i 0).val / 6400 * 6400 ≤ (i 0).val ∧ (i 0).val < (i 0).val / 6400 * 6400 + 6400
    omega
  | ⟨1, _⟩ =>
    show win0_4.index ⟨(i 0).val / 6400, hq⟩ (1 : Fin 2) * 128 ≤ (i 1).val ∧ (i 1).val < win0_4.index ⟨(i 0).val / 6400, hq⟩ (1 : Fin 2) * 128 + 128
    rw [e1]
    omega

/-! ## The array after the run -/

/-- THE ARRAY after the run is the layer's value, whole. -/
theorem final (c : Dev nD) (h1 : ∀ i, 0 ≤ (m ((c : Thread nD τ).loc main_arg1) i).toInt) :
    (dats m 0 c).arrAt 4 cfg0.N = outOf m c :=
  (dats m 0 c).arrAt_eq_of_cover 4 (outOf m c) (fun t _ => flushed_eq m c h1 t) covered

/-- The kernel's run, read: the result array at the layer's value of the arguments, the arguments unchanged. -/
theorem run (h1 : ∀ (c : Dev nD) i, 0 ≤ (m ((c : Thread nD τ).loc main_arg1) i).toInt) :
    θ_run defs (onTc (τ := τ) (main (F := Ideal))) ⟨m, fun _ => 0, ρ⟩ fun r => ∀ c : Dev nD,
      r.2.mem ((c : Thread nD τ).loc main_v25) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (h1 c)), (h c).2⟩) (Value.run_blocks m ρ)

end Cert.KernelIdeal.BlockValue

end
-- ==== Proof.lean ====
/-
  The edge update of a message-passing layer: for every edge `e` with end nodes `s`, `d`,
  `out e = relu (concat (nf s + nf d, ef e) · Wᵀ + b)`.

  The reference computes it as written: two row gathers of the node features, their sum laid beside the edge
  features, one [640000, 256] × [256, 128] product, the bias, the clip at zero. The kernel splits the product along
  the concatenation: on the host it multiplies the NODE features by the node half of `Wᵀ` once (20000 rows), gathers
  rows of that product at the two index rows (clipped into the node range first) and adds them; the pallas_call then
  adds, block of 6400 edges by block, the edge features times the edge half of `Wᵀ` (its bf16 casts are the identity on
  the extended reals), the bias, and clips at zero.

  The two agree because a matrix product distributes over the sum of the two gathered rows and splits over the two
  halves of the contraction — true of real numbers, so the node features and the weights are used as the finite
  numbers the precondition says they are — and because an index word that is not negative names the same node either
  way: jnp's wrap of negative indices does nothing to it, and both the kernel's clip and the gather's own clamp send
  a word past the last node to the last node. (On a NEGATIVE word the two differ — the reference wraps `-1` to the last
  node, the kernel clips it to node `0` — which is why the precondition asks for index words that are not negative.)

  `EdgeSpec` states the layer both ways and proves the algebra; `PreDecode` reads the precondition; `RefValue` reads
  the reference's result at an index; `KernelHost` the arrays the pallas_call finds; `KernelValue` its blocks and the
  array they fill. The frames are the generated ones; `preserves` has nothing to state.
-/
import proofs.«408226_j20959440404595_3_alg».proof.Defs
import proofs.«408226_j20959440404595_3_alg».proof.Proof.Gen.Kernel
import proofs.«408226_j20959440404595_3_alg».proof.Proof.Gen.Kernel.Skeleton
import proofs.«408226_j20959440404595_3_alg».proof.Proof.Gen.Kernel.Launch
import proofs.«408226_j20959440404595_3_alg».proof.Proof.Gen.Kernel.Points
import proofs.«408226_j20959440404595_3_alg».proof.Proof.Gen.Kernel.Frame
import proofs.«408226_j20959440404595_3_alg».proof.Proof.Gen.KernelIdeal
import proofs.«408226_j20959440404595_3_alg».proof.Proof.Gen.KernelIdeal.Skeleton
import proofs.«408226_j20959440404595_3_alg».proof.Proof.Gen.KernelIdeal.Launch
import proofs.«408226_j20959440404595_3_alg».proof.Proof.Gen.KernelIdeal.Points
import proofs.«408226_j20959440404595_3_alg».proof.Proof.Gen.KernelIdeal.Frame
import proofs.«408226_j20959440404595_3_alg».proof.Proof.Gen.ReferenceIdeal
import proofs.«408226_j20959440404595_3_alg».proof.Proof.Gen.Pre_finite_inputs
import proofs.«408226_j20959440404595_3_alg».proof.Proof.Gen.KernelIdeal.Value
import proofs.«408226_j20959440404595_3_alg».proof.Proof.Gen.ReferenceIdeal.Run
import proofs.«408226_j20959440404595_3_alg».proof.Proof.Gen.ReferenceIdeal.Read
import proofs.«408226_j20959440404595_3_alg».proof.Proof.EdgeSpec
import proofs.«408226_j20959440404595_3_alg».proof.Proof.PreDecode
import proofs.«408226_j20959440404595_3_alg».proof.Proof.RefValue
import proofs.«408226_j20959440404595_3_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer's value of the arguments: the kernel's array in the split form, the
    reference's in the plain form, one function where the node features and the weights are real. -/
theorem algebraic : Cert.algebraic_KernelIdeal_ReferenceIdeal := by
  intro m ρ m' ρ' hpre hagree
  have hd := fun c => Cert.EdgeUpdate.Pre.decode _ _ _ _ _ (hpre c)
  refine ⟨fun c => Cert.KernelIdeal.BlockValue.outOf m c,
    Cert.KernelIdeal.BlockValue.run m ρ (fun c => (hd c).2.2), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v25_eq, a0, a1, a2, a3, a4,
    Cert.ReferenceIdeal.RefValue.result_eq _ _ _ _ _ (hd c).2.2]
  exact (Cert.EdgeUpdate.splitOut_eq_layerOut _ _ _ _ _ (hd c).1 (hd c).2.1).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
